-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_127" .f32 0x3C010204#32 ((1 / 127 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4x4096 : Shape := ⟨3, ![16, 4, 4096]⟩
abbrev S11008x4096 : Shape := ⟨2, ![11008, 4096]⟩
abbrev S11008 : Shape := ⟨1, ![11008]⟩
abbrev S_ : Shape := ⟨0, ![]⟩

class Facts : Prop where
  bcast_S_S16x4x4096 : S_.BroadcastsInDim S16x4x4096 (![] : Fin 0 → Fin S16x4x4096.rank)
  reducesTo_S16x4x4096_S_d0_1_2 : S16x4x4096.ReducesTo [0, 1, 2] S_
  h_S_ : 0 < S_.numel
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S16x4x4096 .f32) (main_arg1 : IVec S11008x4096 32) (main_arg2 : FVec F S11008 .f32) (main_arg3 : FVec F S11008 .f32) : IVec S_ 1 :=
  let main_v0 : FVec F S16x4x4096 .f32 := Host.absf main_arg0
  let main_cst : FVec F S_ .f32 := constant S_ .f32 0x7F800000#32
  let main_v1 : FVec F S16x4x4096 .f32 := broadcastInDim S16x4x4096 ![] bcast_S_S16x4x4096 main_cst
  let main_v2 : IVec S16x4x4096 1 := cmpf .olt main_v0 main_v1
  let main_c : IVec S_ 1 := constantI S_ 1 1#1
  let main_v3 : IVec S_ 1 := (fun x v => Host.reduce IntOp.andi x v reducesTo_S16x4x4096_S_d0_1_2 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S16x4x4096 : Shape := ⟨3, ![16, 4, 4096]⟩
abbrev S11008x4096 : Shape := ⟨2, ![11008, 4096]⟩
abbrev S11008 : Shape := ⟨1, ![11008]⟩
abbrev S64x4096 : Shape := ⟨2, ![64, 4096]⟩
abbrev S1x11008 : Shape := ⟨2, ![1, 11008]⟩
abbrev S64x11008 : Shape := ⟨2, ![64, 11008]⟩
abbrev S512x4096 : Shape := ⟨2, ![512, 4096]⟩
abbrev S1x512 : Shape := ⟨2, ![1, 512]⟩
abbrev S64x512 : Shape := ⟨2, ![64, 512]⟩
abbrev S16x4x11008 : Shape := ⟨3, ![16, 4, 11008]⟩

abbrev nBuf : Space → Nat
  | .hbm => 10
  | .vmem => 9
  | .smem => 0
  | _ => 0

abbrev bufTy : (tb : Table) → Fin (tcTables nBuf tb) → BufTy
  | .hbm, ⟨0, _⟩ => ⟨S16x4x4096, .f32⟩
  | .hbm, ⟨1, _⟩ => ⟨S11008x4096, .i32⟩
  | .hbm, ⟨2, _⟩ => ⟨S11008, .f32⟩
  | .hbm, ⟨3, _⟩ => ⟨S11008, .f32⟩
  | .hbm, ⟨4, _⟩ => ⟨S64x4096, .f32⟩
  | .hbm, ⟨5, _⟩ => ⟨S64x4096, .bf16⟩
  | .hbm, ⟨6, _⟩ => ⟨S1x11008, .f32⟩
  | .hbm, ⟨7, _⟩ => ⟨S1x11008, .f32⟩
  | .hbm, ⟨8, _⟩ => ⟨S64x11008, .f32⟩
  | .hbm, ⟨9, _⟩ => ⟨S16x4x11008, .f32⟩
  | .local _ .vmem, ⟨0, _⟩ => ⟨S64x4096, .bf16⟩
  | .local _ .vmem, ⟨1, _⟩ => ⟨S512x4096, .i32⟩
  | .local _ .vmem, ⟨2, _⟩ => ⟨S512x4096, .i32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S64x512, .f32⟩
  | .local _ .vmem, ⟨8, _⟩ => ⟨S64x512, .f32⟩
  | _, _ => ⟨S16x4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x4x4096_S64x4096 : S16x4x4096.ShapeCasts S64x4096
  bitsLt_bf16_f32 : FTy.bits .bf16 < FTy.bits .f32
  shapeCasts_S11008_S1x11008 : S11008.ShapeCasts S1x11008
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S512x4096_S512x4096_0_0 : ∀ a, (![0, 0] : Fin 2 → Nat) a + S512x4096.size a ≤ S512x4096.size a
  h_S512x4096 : 0 < S512x4096.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S64x512 : S1x512.Broadcasts S64x512
  inb_S64x512_S64x512_0_0 : ∀ a, (![0, 0] : Fin 2 → Nat) a + S64x512.size a ≤ S64x512.size a
  h_S64x512 : 0 < S64x512.numel
  shapeCasts_S64x11008_S16x4x11008 : S64x11008.ShapeCasts S16x4x11008
  dot_S64x4096_S512x4096_S64x512_1_1_0_0_n_n_wf : DotDims.WF S64x4096 S512x4096 S64x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x4096.size a
  hwx0_0 : ∀ i : grid0.Coords, EltTy.bits .bf16 = 32 ∨ (Rect.block (s := S64x4096) S64x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x4096.size a < S11008x4096.size a
  hwx0_1 : ∀ i : grid0.Coords, EltTy.bits .i32 = 32 ∨ (Rect.unit (s := S11008x4096) (fun a => cc0_transform_1 i a * S512x4096.size a) (fun a => (Pipeline.Clip.of (cc0_transform_1 i a) (S512x4096.size a) (S11008x4096.size a)).extent (S512x4096.size a)) fun a => Pipeline.Clip.inb (Pipeline.Clip.ok_of (hstart0_1 i a))).WholeWords (EltTy.packing .i32)
  hwxs0_1 : ∀ i : grid0.Coords, EltTy.bits .i32 = 32 ∨ (Rect.unit (s := S512x4096) (fun _ => 0) (fun a => (Pipeline.Clip.of (cc0_transform_1 i a) (S512x4096.size a) (S11008x4096.size a)).extent (S512x4096.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x512.size a < S1x11008.size a
  hwx0_2 : ∀ i : grid0.Coords, EltTy.bits .f32 = 32 ∨ (Rect.unit (s := S1x11008) (fun a => cc0_transform_2 i a * S1x512.size a) (fun a => (Pipeline.Clip.of (cc0_transform_2 i a) (S1x512.size a) (S1x11008.size a)).extent (S1x512.size a)) fun a => Pipeline.Clip.inb (Pipeline.Clip.ok_of (hstart0_2 i a))).WholeWords (EltTy.packing .f32)
  hwxs0_2 : ∀ i : grid0.Coords, EltTy.bits .f32 = 32 ∨ (Rect.unit (s := S1x512) (fun _ => 0) (fun a => (Pipeline.Clip.of (cc0_transform_2 i a) (S1x512.size a) (S1x11008.size a)).extent (S1x512.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x512.size a < S1x11008.size a
  hwx0_3 : ∀ i : grid0.Coords, EltTy.bits .f32 = 32 ∨ (Rect.unit (s := S1x11008) (fun a => cc0_transform_3 i a * S1x512.size a) (fun a => (Pipeline.Clip.of (cc0_transform_3 i a) (S1x512.size a) (S1x11008.size a)).extent (S1x512.size a)) fun a => Pipeline.Clip.inb (Pipeline.Clip.ok_of (hstart0_3 i a))).WholeWords (EltTy.packing .f32)
  hwxs0_3 : ∀ i : grid0.Coords, EltTy.bits .f32 = 32 ∨ (Rect.unit (s := S1x512) (fun _ => 0) (fun a => (Pipeline.Clip.of (cc0_transform_3 i a) (S1x512.size a) (S1x11008.size a)).extent (S1x512.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S64x512.size a < S64x11008.size a
  hwx0_4 : ∀ i : grid0.Coords, EltTy.bits .f32 = 32 ∨ (Rect.unit (s := S64x11008) (fun a => cc0_transform_4 i a * S64x512.size a) (fun a => (Pipeline.Clip.of (cc0_transform_4 i a) (S64x512.size a) (S64x11008.size a)).extent (S64x512.size a)) fun a => Pipeline.Clip.inb (Pipeline.Clip.ok_of (hstart0_4 i a))).WholeWords (EltTy.packing .f32)
  hwxs0_4 : ∀ i : grid0.Coords, EltTy.bits .f32 = 32 ∨ (Rect.unit (s := S64x512) (fun _ => 0) (fun a => (Pipeline.Clip.of (cc0_transform_4 i a) (S64x512.size a) (S64x11008.size a)).extent (S64x512.size a)) fun a => (Nat.zero_add _).trans_le (Pipeline.Clip.extent_le (Pipeline.Clip.ok_of (hstart0_4 i a)))).WholeWords (EltTy.packing .f32)

variable [Facts₀]

def dot_S64x4096_S512x4096_S64x512_1_1_0_0_n_n : DotDims S64x4096 S512x4096 S64x512 where
  lhsContracting := [1]
  rhsContracting := [1]
  lhsNonContracting := [0]
  rhsNonContracting := [0]
  lhsBatch := []
  rhsBatch := []
  wf := dot_S64x4096_S512x4096_S64x512_1_1_0_0_n_n_wf

abbrev win0_0 : Pipeline.Window sig grid0 :=
  Pipeline.Window.ofSpec (Memref.whole main_v1) S64x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S512x4096.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v2) S1x512.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v3) S1x512.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v4) S64x512.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x4x4096 : Shape := ⟨3, ![16, 4, 4096]⟩
abbrev S11008x4096 : Shape := ⟨2, ![11008, 4096]⟩
abbrev S11008 : Shape := ⟨1, ![11008]⟩
abbrev S_ : Shape := ⟨0, ![]⟩
abbrev S11008x1 : Shape := ⟨2, ![11008, 1]⟩
abbrev S16x4x11008 : Shape := ⟨3, ![16, 4, 11008]⟩
abbrev S1x1x11008 : Shape := ⟨3, ![1, 1, 11008]⟩

abbrev nBuf : Space → Nat
  | .hbm => 15
  | .vmem => 0
  | .smem => 0
  | _ => 0

abbrev bufTy : (tb : Table) → Fin (tcTables nBuf tb) → BufTy
  | .hbm, ⟨0, _⟩ => ⟨S16x4x4096, .f32⟩
  | .hbm, ⟨1, _⟩ => ⟨S11008x4096, .i32⟩
  | .hbm, ⟨2, _⟩ => ⟨S11008, .f32⟩
  | .hbm, ⟨3, _⟩ => ⟨S11008, .f32⟩
  | .hbm, ⟨4, _⟩ => ⟨S11008x4096, .f32⟩
  | .hbm, ⟨5, _⟩ => ⟨S_, .f32⟩
  | .hbm, ⟨6, _⟩ => ⟨S11008, .f32⟩
  | .hbm, ⟨7, _⟩ => ⟨S11008, .f32⟩
  | .hbm, ⟨8, _⟩ => ⟨S11008x1, .f32⟩
  | .hbm, ⟨9, _⟩ => ⟨S11008x4096, .f32⟩
  | .hbm, ⟨10, _⟩ => ⟨S11008x4096, .f32⟩
  | .hbm, ⟨11, _⟩ => ⟨S16x4x11008, .f32⟩
  | .hbm, ⟨12, _⟩ => ⟨S1x1x11008, .f32⟩
  | .hbm, ⟨13, _⟩ => ⟨S16x4x11008, .f32⟩
  | .hbm, ⟨14, _⟩ => ⟨S16x4x11008, .f32⟩
  | _, _ => ⟨S16x4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S_S11008 : S_.BroadcastsInDim S11008 (![] : Fin 0 → Fin S11008.rank)
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S11008_S1x1x11008_2 : S11008.BroadcastsInDim S1x1x11008 (![2] : Fin 1 → Fin S1x1x11008.rank)
  bcast_S1x1x11008_S16x4x11008_0_1_2 : S1x1x11008.BroadcastsInDim S16x4x11008 (![0, 1, 2] : Fin 3 → Fin S16x4x11008.rank)
  dot_S16x4x4096_S11008x4096_S16x4x11008_2_1_01_0_n_n_wf : DotDims.WF S16x4x4096 S11008x4096 S16x4x11008 [2] [1] [0, 1] [0] [] []

variable [Facts₀]

def dot_S16x4x4096_S11008x4096_S16x4x11008_2_1_01_0_n_n : DotDims S16x4x4096 S11008x4096 S16x4x11008 where
  lhsContracting := [2]
  rhsContracting := [1]
  lhsNonContracting := [0, 1]
  rhsNonContracting := [0]
  lhsBatch := []
  rhsBatch := []
  wf := dot_S16x4x4096_S11008x4096_S16x4x11008_2_1_01_0_n_n_wf

class Facts : Prop extends Facts₀ where

variable [Facts]
-- ==== Proof.KernelFrame.lean ====
/-
  The frame of the quantized linear layer as the compiler's program computes it, word by word: the program runs to
  its end, nothing in it faults, and the four argument arrays — the activations, the integer weight matrix, the
  scale and the bias — hold at the end what they held at the launch.

  The program converts the activations to sixteen-bit floats and views scale and bias as rows (host lines that write
  buffers of their own), runs one pipelined region over 22 tiles of 512 output features, and views the region's
  result in its final shape (a last host line, writing the result buffer). Of the region's five windows only the
  integer weight matrix is an argument array; it is an input window, so the pipeline only ever reads it. The other
  three arguments bypass the region altogether, and no host line writes an argument.

  At a grid point the body reads four staging buffers whole — the activations' block, a tile of 512 weight rows, the
  matching 512 entries of scale and of bias — and overwrites the result's tile whole. The last of the 22 tiles holds
  256 features only: there the fetches fill the staging positions past the arrays' end with words nothing names, and
  the write-back leaves those positions out. Nothing claimed here reads the result, so what the body stores into the
  result's tile is never described: that window is handed to the body at any contents and taken back at any contents.
  The inputs' staging buffers are left as found, which is all the pipeline needs of them.
-/
import proofs.«411013_j2654289789344_3_alg».proof.Defs
import proofs.«411013_j2654289789344_3_alg».proof.Proof.Gen.Kernel
import proofs.«411013_j2654289789344_3_alg».proof.Proof.Gen.Kernel.Skeleton
import proofs.«411013_j2654289789344_3_alg».proof.Proof.Gen.Kernel.Launch
import proofs.«411013_j2654289789344_3_alg».proof.Proof.Gen.Kernel.Points
import proofs.«411013_j2654289789344_3_alg».proof.Proof.Gen.Kernel.Frame
import proofs.«411013_j2654289789344_3_alg».proof.Proof.Gen.Pre_finite_inputs
import Idealize.ShloMosaic.Lib.Pipeline.FrameBody
import Idealize.ShloMosaic.Lib.Pipeline.FrameSuffix
import Idealize.ShloMosaic.Lib.Tactic

set_option maxRecDepth 16384

noncomputable section

namespace Cert.Proof.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-! ## The body at one grid point -/

/-- The body's five accesses: each is the whole of its staging buffer. -/
abbrev rX : Rect S64x4096 := Rect.unit (s := S64x4096) ![0, 0] S64x4096.size Facts₀.inb_S64x4096_S64x4096_0_0
abbrev rW : Rect S512x4096 := Rect.unit (s := S512x4096) ![0, 0] S512x4096.size Facts₀.inb_S512x4096_S512x4096_0_0
abbrev rV : Rect S1x512 := Rect.unit (s := S1x512) ![0, 0] S1x512.size Facts₀.inb_S1x512_S1x512_0_0
abbrev rO : Rect S64x512 := Rect.unit (s := S64x512) ![0, 0] S64x512.size Facts₀.inb_S64x512_S64x512_0_0

/-- The result's tile after the body, from what the four input buffers hold: its one store, of the value computed
    from the four loads. -/
def outTile (x : Vec F S64x4096 .bf16) (w : Vec F S512x4096 .i32) (s b : Vec F S1x512 .f32) : Vec F S64x512 .f32 :=
  View.canon [⟨rO, k0_pay1 (View.ld x rX) (View.ld w rW) (View.ld s rV) (View.ld b rV)⟩]

/-- The one store covers the tile. -/
theorem cover_out (p0 : Vec F S64x512 .f32) (y : S64x512.Idx) :
    ∃ pc ∈ ([⟨rO, p0⟩] : List (View.Piece (Elt F) S64x512 .f32)), y ∈ pc.1.set :=
  View.cover_of_tiled [⟨rO, p0⟩] S64x512.size (by rfl) y

set_option maxHeartbeats 1000000 in
/-- The body on whole staging memrefs — the four inputs at contents `x`, `w`, `s`, `b`, the result's tile at
    anything — runs to the continuation with the four inputs as they were and the result's tile overwritten. -/
theorem sound_kernel (c : Dev nD) (E : Set ℕ) (i : grid0.Coords)
    (arg1 : Memref sig .tc .vmem S64x4096 .bf16) (harg1 : arg1.IsWhole) (arg2 : Memref sig .tc .vmem S512x4096 .i32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S64x512 .f32) (harg5 : arg5.IsWhole)
    (x : Vec F S64x4096 .bf16) (w : Vec F S512x4096 .i32) (s b : Vec F S1x512 .f32) (K : PUnit → sProp 𝕄) :
    iprop(owns (c : Thread nD τ) arg1 fullShare x ∗ owns (c : Thread nD τ) arg2 fullShare w ∗ owns (c : Thread nD τ) arg3 fullShare s
        ∗ owns (c : Thread nD τ) arg4 fullShare b ∗ (∃ d, owns (c : Thread nD τ) arg5 fullShare d)
        ∗ (iprop(owns (c : Thread nD τ) arg1 fullShare x ∗ owns (c : Thread nD τ) arg2 fullShare w ∗ owns (c : Thread nD τ) arg3 fullShare s
            ∗ owns (c : Thread nD τ) arg4 fullShare b ∗ owns (c : Thread nD τ) arg5 fullShare (outTile x w s b)) -∗ K ⟨⟩))
      ⊢ wp frame (wpE (defs₀ (F := F)) Variants.none c none) E (cc0__qlinear_kernel i arg1 harg1 arg2 harg2 arg3 harg3 arg4 harg4 arg5 harg5) K := by
  simp only [cc0__qlinear_kernel_eq_skeleton]; unfold cc0__qlinear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The proof data -/

variable (m : (ℓ : Loc nD τ sig) → Buf (Elt F) ℓ) (ρ : Dev nD → PrngReg)

/-- The one window of which the frame says nothing: the result's. -/
abbrev fgt : Fin cfg0.W → Bool := fun | 0 => false | 1 => false | 2 => false | 3 => false | 4 => true | ⟨_ + 5, h⟩ => absurd h (Nat.not_lt.2 (Nat.le_add_left _ _))

/-- The pipeline's proof data on a core: the arrays as the region finds them; after the body the activations' buffer
    at its block, and the three tiled inputs' buffers at their blocks on the positions inside the arrays (past the
    arrays' end a word nothing reads); of the result's buffer nothing is named. The invariant is the scoped rest and
    the generator register, nothing is owed, the shares are full. -/
def dats (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => (cfg0.win 1).fill (grid0.coords t) (fun _ => default) (Gen.iblk m c 1 t)
    | ⟨2, _⟩ => (cfg0.win 2).fill (grid0.coords t) (fun _ => default) (Gen.iblk m c 2 t)
    | ⟨3, _⟩ => (cfg0.win 3).fill (grid0.coords t) (fun _ => default) (Gen.iblk m c 3 t)
    | ⟨4, _⟩ => fun _ => default
  Φ _ := Pipeline.ΦA spec0 c
  q _ := fullShare
  owed _ := 0

/-- The activations' buffer holds the activations' block at every point. -/
theorem before_0 (c : Dev nD) (t : Fin cfg0.N) (d) : (dats m c).before 0 t d = Gen.iblk m c 0 t :=
  Gen.before0_0_of m (dats m c) rfl (fun _ => rfl) t d

/-- A tiled input's buffer is fetched at every point: it holds the array's block on the positions inside the array
    and whatever the fetch left elsewhere. -/
theorem before_1 (c : Dev nD) (t : Fin cfg0.N) (d) :
    (dats m c).before 1 t d = (cfg0.win 1).fill (grid0.coords t) d (Gen.iblk m c 1 t) := by
  unfold Dat.before; rw [if_pos (fetch0_1 t)]; rfl
theorem before_2 (c : Dev nD) (t : Fin cfg0.N) (d) :
    (dats m c).before 2 t d = (cfg0.win 2).fill (grid0.coords t) d (Gen.iblk m c 2 t) := by
  unfold Dat.before; rw [if_pos (fetch0_2 t)]; rfl
theorem before_3 (c : Dev nD) (t : Fin cfg0.N) (d) :
    (dats m c).before 3 t d = (cfg0.win 3).fill (grid0.coords t) d (Gen.iblk m c 3 t) := by
  unfold Dat.before; rw [if_pos (fetch0_3 t)]; rfl

/-! ## The body obligation -/

/-- At every point the body, handed the four inputs' buffers at what the pipeline left in them and the result's at
    anything, hands the inputs' back unchanged — for the tiled inputs that is their block on the positions inside the
    array, which is all the pipeline asks of a window whose edge block is cut — and the result's at something. -/
theorem body_obligation (c : Dev nD) :
    BodyObligationLoose (dats m c) (defs₀ (F := F)) Variants.none () Set.univ fgt := fun t => by
  rw [bigSep_W0, bigSep_W0]
  simp only
  rw [show (dats m c).Φ t.succ = (dats m c).Φ t.castSucc from rfl,
    show (dats m c).owesAt () t.succ = (dats m c).owesAt () t.castSucc from rfl]
  iintro ⟨HΦ, Ho, ⟨%d0, H0⟩, ⟨%d1, H1⟩, ⟨%d2, H2⟩, ⟨%d3, H3⟩, H4⟩
  rw [before_0 m c t d0, before_1 m c t d1, before_2 m c t d2, before_3 m c t d3]
  iapply (sound_kernel (F := F) c Set.univ (grid0.coords t)
    (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4))
    (Gen.iblk m c 0 t) ((cfg0.win 1).fill (grid0.coords t) d1 (Gen.iblk m c 1 t))
    ((cfg0.win 2).fill (grid0.coords t) d2 (Gen.iblk m c 2 t)) ((cfg0.win 3).fill (grid0.coords t) d3 (Gen.iblk m c 3 t)) _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]
  · iexists d1
    rw [show (cfg0.win 1).cut (grid0.coords t) ((dats m c).after 1 t) = Gen.iblk m c 1 t from (cfg0.win 1).cut_fill _ _ _]
    iexact H1
  isplitl [H2]
  · iexists d2
    rw [show (cfg0.win 2).cut (grid0.coords t) ((dats m c).after 2 t) = Gen.iblk m c 2 t from (cfg0.win 2).cut_fill _ _ _]
    iexact H2
  isplitl [H3]
  · iexists d3
    rw [show (cfg0.win 3).cut (grid0.coords t) ((dats m c).after 3 t) = Gen.iblk m c 3 t from (cfg0.win 3).cut_fill _ _ _]
    iexact H3
  · iexists _; iexact H4

/-! ## The run and the frame -/

/-- What the host line after the region writes: the result in its final shape. -/
abbrev T : Finset (Ref sig .tc) := {main_v5}

/-- From any memory with zero counters every weakly fair execution of the program terminates, nothing faulting, and
    at the end every input window's array holds what the region found in it, and every buffer that bypasses the
    region, the final result apart, what it held when the region was entered. -/
theorem run_main :
    θ_run defs (onTc (τ := τ) (main (F := F))) (s₀ m ρ)
      (RDat.FramePostR cfg0 (fun c => (dats m c).toRForget fgt) T (fun c b => Gen.V0 m c (Proc.devRef .tc b))) :=
  RDat.θ_run_frame_around_T cfgs 0 launch0 defs₀ Variants.none (fun c => (dats m c).toRForget fgt) T m ρ main
    (hbody := fun c => (body_obligation m c).toRForget)
    (hshare := fun c w => (dats m c).share_full (fun _ => rfl) w)
    (howed := fun _ _ => rfl)
    (V₀ := Gen.V0 m) (opss := [hostOps1])
    (hsub := Gen.sfx_sub) (hfresh := Gen.sfx_fresh) (hkeep := Gen.sfx_keeps)
    (hT := fun ops hops op hop b hb => by
      simp only [List.mem_cons, List.mem_nil_iff, or_false] at hops
      subst hops
      simp only [hostOps1, List.mem_cons, List.mem_nil_iff, or_false] at hop
      subst hop
      rw [StableHlo.reshape_writes, Finset.mem_singleton] at hb
      exact Finset.mem_singleton.mpr (Proc.devRef_injective _ hb))
    (hmain := Gen.hmain m Variants.none)
    (hA := fun _ _ => rfl) (hΦ := fun _ _ => rfl)

/-- The word-level program runs to the end, faults nowhere, and leaves its four argument arrays as launched. -/
theorem frame : Cert.frame_Kernel := by
  intro m ρ _
  refine (θ_run defs _ _).mono (fun r h c => ⟨?_, ?_, ?_, ?_⟩) (run_main (F := Bits) m ρ)
  · exact ((h c).2 main_arg0 (Finset.mem_sdiff.mpr ⟨Pipeline.mem_restRefs_of main_arg0 (by decide) (by decide), by decide⟩)).trans
      (Gen.V_main_arg0 m c)
  · exact (h.arr_in c 1 rfl).trans (Gen.V_main_arg1 m c)
  · exact ((h c).2 main_arg2 (Finset.mem_sdiff.mpr ⟨Pipeline.mem_restRefs_of main_arg2 (by decide) (by decide), by decide⟩)).trans
      (Gen.V_main_arg2 m c)
  · exact ((h c).2 main_arg3 (Finset.mem_sdiff.mpr ⟨Pipeline.mem_restRefs_of main_arg3 (by decide) (by decide), by decide⟩)).trans
      (Gen.V_main_arg3 m c)

end Cert.Proof.KernelFrame

end
-- ==== Proof.Payload.lean ====
/-
  The body's arithmetic at one entry of the result's tile, over the extended reals.

  With `x` the 64 × 4096 activations, `w` a 512 × 4096 tile of integer weights, and `s`, `b` the matching 1 × 512 tiles
  of scale and bias, the entry in row `r`, column `q` of what the body stores is

      (∑ k, x[r, k] · w[q, k]) · (s[0, q] · (1/127)) + b[0, q]:

  the matrix unit's product into a zero accumulator is the plain sum, a change of float format is the identity, an
  integer converts to the real it denotes, and the constant the kernel multiplies the scale by denotes 1/127.
  Of the three tiles this entry depends only on row `q` of `w` and entry `q` of `s` and `b`.
-/
import proofs.«411013_j2654289789344_3_alg».proof.Proof.Gen.KernelIdeal.Skeleton
import Idealize.ShloMosaic.PureOps.Ideal.Laws
import Idealize.ShloMosaic.PureOps.IdealRules
import Idealize.ShloMosaic.Lib.ValueIdx
import Idealize.ShloMosaic.Lib.Pipeline.Value

noncomputable section

namespace Cert.KernelIdeal.Payload

open Cert.KernelIdeal Cert.KernelIdeal.Gen
open Idealize.ShloMosaic Idealize.ShloMosaic.ValueIdx

/-- The constant the scale is multiplied by denotes the rational 1/127. -/
theorem inv_127 : Named.named (F := Ideal) κ "inv_127" (φ := .f32) 0x3C010204#32 = ((1 / 127 : ℝ) : EReal) :=
  IdealRules.named_const.ideal_named_scalar _ _ _ _ rfl

/-- A 1 × 512 row spread over the 64 rows of the tile, read at `(r, q)`, is the row's entry `q`. -/
theorem spread_apply {α : Type} (v : S1x512.Idx → α) (r : Fin 64) (q : Fin 512) :
    broadcastTo S64x512 v Facts₀.broadcasts_S1x512_S64x512 (ix2 r q) = v (ix2 0 q) :=
  broadcastTo_apply v _ (ix2 r q) (ix2 0 q) (fun a => by
    match a with
    | ⟨0, _⟩ => show (0 : Nat) = if (1 : Nat) = 1 then 0 else _; rw [if_pos rfl]
    | ⟨1, _⟩ => show q.val = if (512 : Nat) = 1 then 0 else q.val; rw [if_neg (by decide)])

/-! ### The matrix unit's product at an entry -/

theorem lhs_0 (j : S64x512.Idx) (p : dot_S64x4096_S512x4096_S64x512_1_1_0_0_n_n.contr.Idx) : (dot_S64x4096_S512x4096_S64x512_1_1_0_0_n_n.lhsIdx j p 0).val = (j 0).val := by
  unfold DotDims.lhsIdx
  rw [dif_neg (show ¬(0 : Fin S64x4096.rank) ∈ dot_S64x4096_S512x4096_S64x512_1_1_0_0_n_n.lhsBatch by decide),
    dif_pos (show (0 : Fin S64x4096.rank) ∈ dot_S64x4096_S512x4096_S64x512_1_1_0_0_n_n.lhsNonContracting by decide)]
  rfl
theorem lhs_1 (j : S64x512.Idx) (p : dot_S64x4096_S512x4096_S64x512_1_1_0_0_n_n.contr.Idx) : (dot_S64x4096_S512x4096_S64x512_1_1_0_0_n_n.lhsIdx j p 1).val = (p ⟨0, by decide⟩).val :=
  dot_S64x4096_S512x4096_S64x512_1_1_0_0_n_n.lhsIdx_val_of_single rfl j p
theorem rhs_0 (j : S64x512.Idx) (p : dot_S64x4096_S512x4096_S64x512_1_1_0_0_n_n.contr.Idx) : (dot_S64x4096_S512x4096_S64x512_1_1_0_0_n_n.rhsIdx j p 0).val = (j 1).val := by
  unfold DotDims.rhsIdx
  rw [dif_neg (show ¬(0 : Fin S512x4096.rank) ∈ dot_S64x4096_S512x4096_S64x512_1_1_0_0_n_n.rhsBatch by decide),
    dif_pos (show (0 : Fin S512x4096.rank) ∈ dot_S64x4096_S512x4096_S64x512_1_1_0_0_n_n.rhsNonContracting by decide)]
  rfl
theorem rhs_1 (j : S64x512.Idx) (p : dot_S64x4096_S512x4096_S64x512_1_1_0_0_n_n.contr.Idx) : (dot_S64x4096_S512x4096_S64x512_1_1_0_0_n_n.rhsIdx j p 1).val = (p ⟨0, by decide⟩).val :=
  dot_S64x4096_S512x4096_S64x512_1_1_0_0_n_n.rhsIdx_val_of_single rfl j p

/-- The product into the zero accumulator at `(r, q)`: row `r` of the left operand against row `q` of the right one. -/
theorem product_apply (l : FVec Ideal S64x4096 .bf16) (rt : FVec Ideal S512x4096 .bf16) (r : Fin 64) (q : Fin 512) :
    matmul dot_S64x4096_S512x4096_S64x512_1_1_0_0_n_n none l rt (constant S64x512 .f32 0x00000000#32) (ix2 r q)
      = ∑ k : Fin 4096, l (ix2 r k) * rt (ix2 q k) := by
  show FloatOps.matmul dot_S64x4096_S512x4096_S64x512_1_1_0_0_n_n none l rt (constant S64x512 .f32 0x00000000#32) (ix2 r q) = _
  rw [Ideal.matmul_constant_zero_apply,
    ← Equiv.sum_comp (ValueIdx.contrEquiv1 dot_S64x4096_S512x4096_S64x512_1_1_0_0_n_n 4096 rfl rfl).symm]
  refine Finset.sum_congr rfl fun k _ => ?_
  have hk := ValueIdx.contrEquiv1_symm_val dot_S64x4096_S512x4096_S64x512_1_1_0_0_n_n 4096 rfl rfl k
  have el : dot_S64x4096_S512x4096_S64x512_1_1_0_0_n_n.lhsIdx (ix2 r q)
      ((ValueIdx.contrEquiv1 dot_S64x4096_S512x4096_S64x512_1_1_0_0_n_n 4096 rfl rfl).symm k) = ix2 r k := funext fun a => Fin.ext (by
    match a with
    | ⟨0, _⟩ => exact lhs_0 _ _
    | ⟨1, _⟩ => exact (lhs_1 _ _).trans hk)
  have er : dot_S64x4096_S512x4096_S64x512_1_1_0_0_n_n.rhsIdx (ix2 r q)
      ((ValueIdx.contrEquiv1 dot_S64x4096_S512x4096_S64x512_1_1_0_0_n_n 4096 rfl rfl).symm k) = ix2 q k := funext fun a => Fin.ext (by
    match a with
    | ⟨0, _⟩ => exact rhs_0 _ _
    | ⟨1, _⟩ => exact (rhs_1 _ _).trans hk)
  rw [el, er]

/-! ### The payload at an entry -/

/-- What the body stores, at row `r`, column `q` of the result's tile. -/
theorem pay_apply (x : Vec Ideal S64x4096 .bf16) (w : Vec Ideal S512x4096 .i32) (s b : Vec Ideal S1x512 .f32) (r : Fin 64) (q : Fin 512) :
    k0_pay1 (F := Ideal) x w s b (ix2 r q)
      = (∑ k : Fin 4096, x (ix2 r k) * (((w (ix2 q k)).toInt : ℝ) : EReal)) * (s (ix2 0 q) * ((1 / 127 : ℝ) : EReal)) + b (ix2 0 q) := by
  unfold k0_pay1
  rw [addf_apply, mulf_apply, spread_apply, spread_apply, product_apply, shapeCast_self, shapeCast_self, shapeCast_self,
    mulf_apply, broadcast_apply, inv_127]
  rfl

/-- The entry in column `q` sees only row `q` of the weight tile and entry `q` of the scale and bias tiles. -/
theorem pay_local (x : Vec Ideal S64x4096 .bf16) (w w' : Vec Ideal S512x4096 .i32) (s s' b b' : Vec Ideal S1x512 .f32) (r : Fin 64) (q : Fin 512)
    (hw : ∀ k : Fin 4096, w (ix2 q k) = w' (ix2 q k)) (hs : s (ix2 0 q) = s' (ix2 0 q)) (hb : b (ix2 0 q) = b' (ix2 0 q)) :
    k0_pay1 (F := Ideal) x w s b (ix2 r q) = k0_pay1 (F := Ideal) x w' s' b' (ix2 r q) := by
  rw [pay_apply, pay_apply, hs, hb]
  congr 2
  exact Finset.sum_congr rfl fun k _ => by rw [hw k]

end Cert.KernelIdeal.Payload

end
-- ==== Proof.Body.lean ====
/-
  The body of the quantized linear layer's kernel at one grid point, and the pipeline's proof data around it.

  At a point the body is handed five staging buffers: the activations `x` (64 × 4096, the same block at every
  point), a tile of 512 rows of the integer weight matrix, the matching 512 entries of `scale` and of `bias`, and
  the 64 × 512 tile of the result. It reads the first four whole, reads the result's tile once without using what
  it read, and overwrites the result's tile whole with

      (x · wᵀ) ⊙ (scale · (1/127)) + bias        (every row of the tile scaled and shifted entry by entry),

  leaving the four inputs as they were.

  The 11008 output features are cut into 22 tiles of 512, and the last tile holds only 256 of them: at that point the
  weight tile's rows 256‥511, and the entries 256‥511 of the scale, bias and result tiles, lie past the arrays' end.
  A fetch fills those positions with words nobody names and a write-back leaves them out. So what the body finds in
  the three tiled inputs is the array's block on the positions inside the array and arbitrary words elsewhere, and of
  what it leaves in the result's tile only the columns inside the array matter. Column `q` of the result's tile is
  computed from row `q` of the weight tile and entry `q` of the scale and bias tiles alone, so the arbitrary words
  reach only columns that are never written back.
-/
import proofs.«411013_j2654289789344_3_alg».proof.Proof.Gen.KernelIdeal.Frame
import proofs.«411013_j2654289789344_3_alg».proof.Proof.Gen.KernelIdeal.Skeleton
import proofs.«411013_j2654289789344_3_alg».proof.Proof.Payload
import Idealize.ShloMosaic.Lib.Pipeline.FrameBody
import Idealize.ShloMosaic.Lib.Pipeline.FrameSuffix
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## The body's accesses: each is its whole buffer -/

abbrev rX : Rect S64x4096 := Rect.unit (s := S64x4096) ![0, 0] S64x4096.size Facts₀.inb_S64x4096_S64x4096_0_0
abbrev rW : Rect S512x4096 := Rect.unit (s := S512x4096) ![0, 0] S512x4096.size Facts₀.inb_S512x4096_S512x4096_0_0
abbrev rV : Rect S1x512 := Rect.unit (s := S1x512) ![0, 0] S1x512.size Facts₀.inb_S1x512_S1x512_0_0
abbrev rO : Rect S64x512 := Rect.unit (s := S64x512) ![0, 0] S64x512.size Facts₀.inb_S64x512_S64x512_0_0

/-- What the result's tile holds after the body, from what the four input buffers hold: its one store, of the
    payload of the four loads. -/
def outTile (x : Vec F S64x4096 .bf16) (w : Vec F S512x4096 .i32) (s b : Vec F S1x512 .f32) : Vec F S64x512 .f32 :=
  View.canon [⟨rO, k0_pay1 (View.ld x rX) (View.ld w rW) (View.ld s rV) (View.ld b rV)⟩]

/-- The one store covers the tile. -/
theorem cover_out (p0 : Vec F S64x512 .f32) (y : S64x512.Idx) :
    ∃ pc ∈ ([⟨rO, p0⟩] : List (View.Piece (Elt F) S64x512 .f32)), y ∈ pc.1.set :=
  View.cover_of_tiled [⟨rO, p0⟩] S64x512.size (by rfl) y

/-! ## The body's triple -/

set_option maxHeartbeats 1000000 in
/-- The body on whole staging memrefs — the four inputs at contents `x`, `w`, `s`, `b`, the result's tile at anything —
    runs to the continuation with the inputs as they were and the result's tile at `outTile x w s b`. -/
theorem sound_kernel (c : Dev nD) (E : Set ℕ) (i : grid0.Coords)
    (arg1 : Memref sig .tc .vmem S64x4096 .bf16) (harg1 : arg1.IsWhole) (arg2 : Memref sig .tc .vmem S512x4096 .i32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S64x512 .f32) (harg5 : arg5.IsWhole)
    (x : Vec F S64x4096 .bf16) (w : Vec F S512x4096 .i32) (s b : Vec F S1x512 .f32) (K : PUnit → sProp 𝕄) :
    iprop(owns (c : Thread nD τ) arg1 fullShare x ∗ owns (c : Thread nD τ) arg2 fullShare w ∗ owns (c : Thread nD τ) arg3 fullShare s
        ∗ owns (c : Thread nD τ) arg4 fullShare b ∗ (∃ d, owns (c : Thread nD τ) arg5 fullShare d)
        ∗ (iprop(owns (c : Thread nD τ) arg1 fullShare x ∗ owns (c : Thread nD τ) arg2 fullShare w ∗ owns (c : Thread nD τ) arg3 fullShare s
            ∗ owns (c : Thread nD τ) arg4 fullShare b ∗ owns (c : Thread nD τ) arg5 fullShare (outTile x w s b)) -∗ K ⟨⟩))
      ⊢ wp frame (wpE (defs₀ (F := F)) Variants.none c none) E (cc0__qlinear_kernel i arg1 harg1 arg2 harg2 arg3 harg3 arg4 harg4 arg5 harg5) K := by
  simp only [cc0__qlinear_kernel_eq_skeleton]; unfold cc0__qlinear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The pipeline's proof data -/

variable (m : (ℓ : Loc nD τ sig) → Buf (Elt F) ℓ) (ρ : Dev nD → PrngReg)

/-- The words the proof puts at the positions of a tile that lie past its array's end: nothing reads them. -/
abbrev fillW : S512x4096.Idx → Elt F .i32 := fun _ => (0 : BitVec 32)
abbrev fillV : S1x512.Idx → Elt F .f32 := fun _ => Scalar.ofBits .f32 0#32

/-- The weight tile at point `t`: rows `512 t ‥ 512 t + 511` of the weight matrix, as far as the matrix goes. -/
def wTile (c : Dev nD) (t : Fin cfg0.N) : Vec F S512x4096 .i32 := win0_1.fill (grid0.coords t) fillW (iblk m c 1 t)
/-- The scale tile: entries `512 t ‥ 512 t + 511` of the scale row, as far as it goes. -/
def sTile (c : Dev nD) (t : Fin cfg0.N) : Vec F S1x512 .f32 := win0_2.fill (grid0.coords t) fillV (iblk m c 2 t)
/-- The bias tile likewise. -/
def bTile (c : Dev nD) (t : Fin cfg0.N) : Vec F S1x512 .f32 := win0_3.fill (grid0.coords t) fillV (iblk m c 3 t)

/-- The proof data of the one pipeline on core `c`: the arrays as the region finds them; after the body at point `t`
    the activations' buffer at its block, the three tiled inputs' at their tiles, the result's at the body's payload of
    those four; the scoped rest and the generator register untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wTile m c t
    | ⟨2, _⟩ => sTile m c t
    | ⟨3, _⟩ => bTile m c t
    | ⟨4, _⟩ => outTile (iblk m c 0 t) (wTile m c t) (sTile m c t) (bTile m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = wTile m c t := by dsimp only [dats]
theorem after_2 (c : Dev nD) (t : Fin cfg0.N) : (dats m 0 c).after 2 t = sTile m c t := by dsimp only [dats]
theorem after_3 (c : Dev nD) (t : Fin cfg0.N) : (dats m 0 c).after 3 t = bTile m c t := by dsimp only [dats]
theorem after_4 (c : Dev nD) (t : Fin cfg0.N) :
    (dats m 0 c).after 4 t = outTile (iblk m c 0 t) (wTile m c t) (sTile m c t) (bTile m c t) := by dsimp only [dats]

/-! ## What the body finds in each buffer -/

/-- The activations' one buffer holds their block at every point, fetched there or not. -/
theorem before_0 (c : Dev nD) (t : Fin cfg0.N) (d) : (dats m 0 c).before 0 t d = iblk m c 0 t :=
  before0_0_of m (dats m 0 c) (A_eq m c 0) (after_0 m c) t d

/-- The three tiled inputs are fetched at every point: the buffer holds the array's block on the positions inside the
    array, and on the others whatever the fetch left there. -/
theorem before_1 (c : Dev nD) (t : Fin cfg0.N) (d) :
    (dats m 0 c).before 1 t d = win0_1.fill (grid0.coords t) d (iblk m c 1 t) := by
  rw [(dats m 0 c).before_fetched 1 t (fetch0_1 t) d]; rfl
theorem before_2 (c : Dev nD) (t : Fin cfg0.N) (d) :
    (dats m 0 c).before 2 t d = win0_2.fill (grid0.coords t) d (iblk m c 2 t) := by
  rw [(dats m 0 c).before_fetched 2 t (fetch0_2 t) d]; rfl
theorem before_3 (c : Dev nD) (t : Fin cfg0.N) (d) :
    (dats m 0 c).before 3 t d = win0_3.fill (grid0.coords t) d (iblk m c 3 t) := by
  rw [(dats m 0 c).before_fetched 3 t (fetch0_3 t) d]; rfl

/-- The result's tile is written back at every point, so the body finds it holding anything. -/
theorem before_4 (c : Dev nD) (t : Fin cfg0.N) (d) : (dats m 0 c).before 4 t d = d := by
  refine (dats m 0 c).before_out_reset 4 rfl t ?_ d
  by_cases h0 : t.val = 0
  · exact .inl h0
  · exact .inr ⟨h0, flush0_4 _⟩

/-! ## Which positions of a tile lie inside its array -/

/-- Over the 22 points: the weight tile is cut on its rows only, the scale, bias and result tiles on their columns
    only, and all four at the same count — 512 at the first 21 points, 256 at the last. -/
theorem cut_sizes : ∀ t : Fin cfg0.N,
    win0_1.xsize (grid0.coords t) 1 = 4096 ∧ win0_2.xsize (grid0.coords t) 0 = 1 ∧ win0_3.xsize (grid0.coords t) 0 = 1
      ∧ win0_4.xsize (grid0.coords t) 0 = 64 ∧ win0_1.xsize (grid0.coords t) 0 = win0_4.xsize (grid0.coords t) 1
      ∧ win0_2.xsize (grid0.coords t) 1 = win0_4.xsize (grid0.coords t) 1 ∧ win0_3.xsize (grid0.coords t) 1 = win0_4.xsize (grid0.coords t) 1 :=
  (by decide +kernel : ∀ t : Fin grid0.N,
    win0_1.xsize (grid0.coords t) 1 = 4096 ∧ win0_2.xsize (grid0.coords t) 0 = 1 ∧ win0_3.xsize (grid0.coords t) 0 = 1
      ∧ win0_4.xsize (grid0.coords t) 0 = 64 ∧ win0_1.xsize (grid0.coords t) 0 = win0_4.xsize (grid0.coords t) 1
      ∧ win0_2.xsize (grid0.coords t) 1 = win0_4.xsize (grid0.coords t) 1 ∧ win0_3.xsize (grid0.coords t) 1 = win0_4.xsize (grid0.coords t) 1)

/-- Two fills of one block agree wherever the block was put. -/
theorem fill_agree {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-- The result's tile after the body is the payload of the four buffers' contents (every access is a whole buffer). -/
theorem outTile_eq (x : Vec F S64x4096 .bf16) (w : Vec F S512x4096 .i32) (s b : Vec F S1x512 .f32) :
    outTile x w s b = k0_pay1 x w s b := by
  have hz : (![0, 0] : Fin 2 → Nat) = fun _ => 0 := funext fun a => by fin_cases a <;> rfl
  unfold outTile
  rw [View.canon_unit_zero hz]
  simp only [View.ld_unit_zero (S := S64x4096) hz, View.ld_unit_zero (S := S512x4096) hz, View.ld_unit_zero (S := S1x512) hz]

section AtIdeal

open Idealize.ShloMosaic.ValueIdx

variable (m : (ℓ : Loc nD τ sig) → Buf (Elt Ideal) ℓ)

/-- On the columns that are written back, what the body stores does not depend on the words past the arrays' end in
    the three tiled inputs: column `q` is computed from row `q` of the weight tile and entry `q` of the other two. -/
theorem cut_out (c : Dev nD) (t : Fin cfg0.N) (x : Vec Ideal S64x4096 .bf16) (d1 d1' : S512x4096.Idx → Elt Ideal .i32)
    (d2 d2' d3 d3' : S1x512.Idx → Elt Ideal .f32) :
    win0_4.cut (grid0.coords t) (outTile x (win0_1.fill (grid0.coords t) d1 (iblk m c 1 t)) (win0_2.fill (grid0.coords t) d2 (iblk m c 2 t))
        (win0_3.fill (grid0.coords t) d3 (iblk m c 3 t)))
      = win0_4.cut (grid0.coords t) (outTile x (win0_1.fill (grid0.coords t) d1' (iblk m c 1 t)) (win0_2.fill (grid0.coords t) d2' (iblk m c 2 t))
        (win0_3.fill (grid0.coords t) d3' (iblk m c 3 t))) := by
  obtain ⟨e14, e20, e30, e40, e10, e21, e31⟩ := cut_sizes t
  funext j
  have hj1 : (j 1).val < win0_4.xsize (grid0.coords t) 1 := (j 1).isLt
  have hj0 : (j 0).val < 64 := e40 ▸ (j 0).isLt
  have hq : (j 1).val < 512 := lt_of_lt_of_le hj1 (win0_4.xsize_le (grid0.coords t) 1)
  have hx : win0_4.xinj (grid0.coords t) j = ix2 (⟨(j 0).val, hj0⟩ : Fin 64) (⟨(j 1).val, hq⟩ : Fin 512) :=
    funext fun a => Fin.ext (by match a with | ⟨0, _⟩ => rfl | ⟨1, _⟩ => rfl)
  show outTile _ _ _ _ (win0_4.xinj (grid0.coords t) j) = outTile _ _ _ _ (win0_4.xinj (grid0.coords t) j)
  rw [hx, outTile_eq, outTile_eq]
  refine Payload.pay_local _ _ _ _ _ _ _ _ _ (fun k => ?_) ?_ ?_
  · refine fill_agree win0_1 _ _ _ _ _ ((win0_1.moved_iff _ _).mpr fun a => ?_)
    match a with
    | ⟨0, _⟩ => show (j 1).val < win0_1.xsize (grid0.coords t) 0; rw [e10]; exact hj1
    | ⟨1, _⟩ => show k.val < win0_1.xsize (grid0.coords t) 1; rw [e14]; exact k.isLt
  · refine fill_agree win0_2 _ _ _ _ _ ((win0_2.moved_iff _ _).mpr fun a => ?_)
    match a with
    | ⟨0, _⟩ => show (0 : Nat) < win0_2.xsize (grid0.coords t) 0; rw [e20]; exact Nat.one_pos
    | ⟨1, _⟩ => show (j 1).val < win0_2.xsize (grid0.coords t) 1; rw [e21]; exact hj1
  · refine fill_agree win0_3 _ _ _ _ _ ((win0_3.moved_iff _ _).mpr fun a => ?_)
    match a with
    | ⟨0, _⟩ => show (0 : Nat) < win0_3.xsize (grid0.coords t) 0; rw [e30]; exact Nat.one_pos
    | ⟨1, _⟩ => show (j 1).val < win0_3.xsize (grid0.coords t) 1; rw [e31]; exact hj1

end AtIdeal

section ObligationAtIdeal

variable (m : (ℓ : Loc nD τ sig) → Buf (Elt Ideal) ℓ) (ρ : Dev nD → PrngReg)

local notation "𝕀" => MT nD τ sig Unit (Elt Ideal) ℕ (UR sig nD τ) ℕ

/-- What the body is called with at point `t`: the invariant, what the core owes, and each window's current buffer at
    what it then holds. -/
def bodyPre (c : Dev nD) (t : Fin cfg0.N) : sProp 𝕀 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns: the activations' buffer at its block; each of the four tiled buffers at what the proof data names
    on the positions inside the array, and at some words elsewhere. -/
def bodyPost (c : Dev nD) (t : Fin cfg0.N) : sProp 𝕀 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t))))
    ∗ (∃ d, owns (c : Thread nD τ) (st0_4 t) fullShare (win0_4.fill (grid0.coords t) d (win0_4.cut (grid0.coords t) ((dats m 0 c).after 4 t)))))

/-- The body at any point. The activations' buffer is found and left at its block. Each tiled input is found at its
    block on the positions inside the array and at some words `d` elsewhere, and is left so: on the positions inside the
    array that is the tile the proof data names. The result's tile is found holding anything and left at the payload of
    those contents, which on the columns inside the array is the payload of the named tiles (`cut_out`). The invariant
    and what the core owes pass through unread. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2, before_3 m c t d3, before_4 m c t d4]
  iapply (sound_kernel (F := Ideal) c Set.univ (grid0.coords t) _ _ _ _ _ _ _ _ _ _ (iblk m c 0 t)
    (win0_1.fill (grid0.coords t) d1 (iblk m c 1 t)) (win0_2.fill (grid0.coords t) d2 (iblk m c 2 t))
    (win0_3.fill (grid0.coords t) d3 (iblk m c 3 t)) _)
  isplitl [H0]; · iexact H0
  isplitl [H1]; · iexact H1
  isplitl [H2]; · iexact H2
  isplitl [H3]; · iexact H3
  isplitl [H4]; · iexists d4; iexact H4
  iintro ⟨H0, H1, H2, H3, H4⟩
  isplitl [HΦ]; · iexact HΦ
  isplitl [Ho]; · iexact Ho
  have h1 : win0_1.cut (grid0.coords t) ((dats m 0 c).after 1 t) = iblk m c 1 t := by
    rw [after_1]; exact win0_1.cut_fill _ _ _
  have h2 : win0_2.cut (grid0.coords t) ((dats m 0 c).after 2 t) = iblk m c 2 t := by
    rw [after_2]; exact win0_2.cut_fill _ _ _
  have h3 : win0_3.cut (grid0.coords t) ((dats m 0 c).after 3 t) = iblk m c 3 t := by
    rw [after_3]; exact win0_3.cut_fill _ _ _
  have h4 : win0_4.fill (grid0.coords t)
        (outTile (iblk m c 0 t) (win0_1.fill (grid0.coords t) d1 (iblk m c 1 t)) (win0_2.fill (grid0.coords t) d2 (iblk m c 2 t))
          (win0_3.fill (grid0.coords t) d3 (iblk m c 3 t)))
        (win0_4.cut (grid0.coords t) ((dats m 0 c).after 4 t))
      = outTile (iblk m c 0 t) (win0_1.fill (grid0.coords t) d1 (iblk m c 1 t)) (win0_2.fill (grid0.coords t) d2 (iblk m c 2 t))
          (win0_3.fill (grid0.coords t) d3 (iblk m c 3 t)) := by
    refine win0_4.fill_congr_cut (grid0.coords t) ?_
    rw [after_4]
    exact cut_out m c t _ _ _ _ _ _ _
  rw [after_0, h1, h2, h3]
  isplitl [H0]; · iexact H0
  isplitl [H1]; · iexists d1; iexact H1
  isplitl [H2]; · iexists d2; iexact H2
  isplitl [H3]; · iexists d3; iexact H3
  iexists (outTile (iblk m c 0 t) (win0_1.fill (grid0.coords t) d1 (iblk m c 1 t)) (win0_2.fill (grid0.coords t) d2 (iblk m c 2 t))
    (win0_3.fill (grid0.coords t) d3 (iblk m c 3 t)))
  rw [h4]; iexact H4

/-- The body obligation, at every point. -/
theorem body_obligation (c : Dev nD) :
    BodyObligationLoose (dats (F := Ideal) m 0 c) (defs₀ (F := Ideal)) Variants.none () Set.univ := fun t => by
  rw [bigSep_W0, bigSep_W0]
  exact sound_body m c t

/-! ## The run -/

set_option backward.isDefEq.respectTransparency.types false in
/-- For any extended-real values, from any memory with zero counters: every weakly fair execution of the program
    terminates, and every final state has each array of the pipeline at what the write-backs make of it, and every
    other buffer outside the region at what the lines after the region make of it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end ObligationAtIdeal

end Cert.KernelIdeal.Body

end
-- ==== Proof.Spec.lean ====
/-
  The quantized linear layer as ONE function of its four argument arrays, index by index over the extended reals:
  for a batch entry `(b, s)` and an output feature `o`,

    out[b, s, o] = (∑ k, x[b, s, k] · w[o, k]) · (scale[o] · (1/127)) + bias[o],

  the integer weight `w[o, k]` read signed as a real. This is the arrangement in which the integer matrix product is
  formed first and the per-feature factor `scale[o] / 127` applied to the 64 × 11008 product afterwards; dequantizing
  every weight first, `∑ k, x[b, s, k] · (w[o, k] · (scale[o] / 127))`, is the same number whenever the entries of `x`
  and `scale` are real (the factor moves across a finite sum of reals; at an infinity it need not).
-/
import Idealize.ShloMosaic.PureOps.Ideal
import Idealize.ShloMosaic.Lib.ValueIdx

noncomputable section

namespace Cert.QLinear

open Idealize.ShloMosaic Idealize.ShloMosaic.ValueIdx

/-- The activations' shape, the weight matrix's, a per-feature vector's, and the result's. -/
abbrev SX : Shape := ⟨3, ![16, 4, 4096]⟩
abbrev SW : Shape := ⟨2, ![11008, 4096]⟩
abbrev SV : Shape := ⟨1, ![11008]⟩
abbrev SO : Shape := ⟨3, ![16, 4, 11008]⟩

/-- The integer weight at row `o`, column `k`, as an extended real. -/
abbrev wt (w : IVec SW 32) (o : Fin 11008) (k : Fin 4096) : EReal := (((w (ix2 o k)).toInt : ℝ) : EReal)

/-- The layer's result at an index: product first, per-feature factor after, bias last. -/
def outK (x : FVec Ideal SX .f32) (w : IVec SW 32) (sc bi : FVec Ideal SV .f32) : FVec Ideal SO .f32 :=
  fun i => (∑ k : Fin 4096, x (ix3 (i 0) (i 1) k) * wt w (i 2) k) * (sc (ix1 (i 2)) * ((1 / 127 : ℝ) : EReal)) + bi (ix1 (i 2))

end Cert.QLinear

end
-- ==== Proof.Result.lean ====
/-
  What the idealized kernel's run leaves in the result array, as one function of the four argument arrays.

  The region writes a 64 × 11008 array in 22 column tiles of 512 (the last holding 256 columns). Row `r`, column `o` of it is

      (∑ k, X[r, k] · W[o, k]) · (S[0, o] · (1/127)) + B[0, o],

  where `X` is the 64 × 4096 array the region finds for the activations, `W` the weight matrix, and `S`, `B` the 1 × 11008
  rows it finds for scale and bias: at point `t` the body's payload at tile column `q` is this number at `o = 512 t + q`,
  because the weight tile's row `q` is the matrix's row `512 t + q` and the scale and bias tiles' entry `q` is the rows'
  entry `512 t + q`, wherever `512 t + q` is a column of the array. The tiles' columns inside the array cover it, so the
  array ends holding that function.

  The lines before the region make `X` the activations read as a 64 × 4096 matrix, row `4 b + s` being the entry
  `(b, s)` of the batch, and `S`, `B` the two vectors read as rows; the line after it reads the 64 × 11008 result as
  16 × 4 × 11008. So the program's result at `(b, s, o)` is the layer's stated function of the four arguments.
-/
import proofs.«411013_j2654289789344_3_alg».proof.Proof.Body
import proofs.«411013_j2654289789344_3_alg».proof.Proof.Spec
import Idealize.ShloMosaic.Lib.Pipeline.Value
import Idealize.ShloMosaic.Lib.StableHlo.Run

set_option maxRecDepth 16384

noncomputable section

namespace Cert.KernelIdeal.Result

open Cert.KernelIdeal Cert.KernelIdeal.Gen Cert.KernelIdeal.Body
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## The array the region writes, as one function of the arrays it finds -/

/-- Row `r`, column `o`: the integer product of row `r` of `X` with row `o` of `W`, times `S[0, o] · (1/127)`, plus `B[0, o]`. -/
def tile (X : Vec Ideal S64x4096 .bf16) (W : Vec Ideal S11008x4096 .i32) (S B : Vec Ideal S1x11008 .f32) : Vec Ideal S64x11008 .f32 :=
  fun j => (∑ k : Fin 4096, X (ix2 (j 0) k) * (((W (ix2 (j 1) k)).toInt : ℝ) : EReal)) * (S (ix2 0 (j 1)) * ((1 / 127 : ℝ) : EReal))
    + B (ix2 0 (j 1))

/-- The four arrays as the region finds them, at their literal types. -/
abbrev aX (c : Dev nD) : Vec Ideal S64x4096 .bf16 := V m c main_v1
abbrev aW (c : Dev nD) : Vec Ideal S11008x4096 .i32 := V m c main_arg1
abbrev aS (c : Dev nD) : Vec Ideal S1x11008 .f32 := V m c main_v2
abbrev aB (c : Dev nD) : Vec Ideal S1x11008 .f32 := V m c main_v3

/-- The index maps over the 22 points: the activations' block never moves; the weight tile moves down the rows, the
    scale, bias and result tiles along the columns, all with the point. -/
theorem idx_facts : ∀ t : Fin cfg0.N,
    win0_0.index t 0 = 0 ∧ win0_0.index t 1 = 0 ∧ win0_1.index t 0 = t.val ∧ win0_1.index t 1 = 0
      ∧ win0_2.index t 0 = 0 ∧ win0_2.index t 1 = t.val ∧ win0_3.index t 0 = 0 ∧ win0_3.index t 1 = t.val
      ∧ win0_4.index t 0 = 0 ∧ win0_4.index t 1 = t.val :=
  (by decide +kernel : ∀ t : Fin grid0.N,
    win0_0.index t 0 = 0 ∧ win0_0.index t 1 = 0 ∧ win0_1.index t 0 = t.val ∧ win0_1.index t 1 = 0
      ∧ win0_2.index t 0 = 0 ∧ win0_2.index t 1 = t.val ∧ win0_3.index t 0 = 0 ∧ win0_3.index t 1 = t.val
      ∧ win0_4.index t 0 = 0 ∧ win0_4.index t 1 = t.val)

/-- How many of a tile's 512 columns lie inside the array: all of them at the first 21 points, 256 at the last. -/
theorem cols_inside : ∀ t : Fin cfg0.N,
    (t.val < 21 → win0_4.xsize (grid0.coords t) 1 = 512) ∧ (t.val = 21 → win0_4.xsize (grid0.coords t) 1 = 256) ∧ t.val < 22 :=
  (by decide +kernel : ∀ t : Fin grid0.N,
    (t.val < 21 → win0_4.xsize (grid0.coords t) 1 = 512) ∧ (t.val = 21 → win0_4.xsize (grid0.coords t) 1 = 256) ∧ t.val < 22)

/-! ## What point `t` writes back -/

section Reads

variable (c : Dev nD) (t : Fin cfg0.N) (j : (win0_4.xblock (grid0.coords t)).Idx)

/-- The activations' block at `(r, k)` is the array's entry `(r, k)`: the block is the whole array. -/
theorem x_read (r : Fin 64) (k : Fin 4096) (hr : r.val = (j 0).val) :
    iblk m c 0 t (ix2 r k) = aX m c (ix2 ((((cfg0.win 4).blk t).view.emb j) 0) k) := by
  obtain ⟨i00, i01, i10, i11, i20, i21, i30, i31, i40, i41⟩ := idx_facts t
  show V m c main_v1 (((cfg0.win 0).blk t).view.emb (ix2 r k)) = V m c main_v1 (ix2 ((((cfg0.win 4).blk t).view.emb j) 0) k)
  refine congrArg (V m c main_v1) (funext fun a => Fin.ext ?_)
  match a with
  | ⟨0, _⟩ => show win0_0.index t 0 * 64 + 1 * r.val = win0_4.index t 0 * 64 + 1 * (j 0).val; rw [i00, i40, hr]
  | ⟨1, _⟩ => show win0_0.index t 1 * 4096 + 1 * k.val = k.val; rw [i01]; omega

/-- Row `q` of the weight tile, where column `q` of the result's tile is inside the array, is row `512 t + q` of the matrix. -/
theorem w_read (q : Fin 512) (k : Fin 4096) (hq : q.val = (j 1).val) :
    wTile m c t (ix2 q k) = aW m c (ix2 ((((cfg0.win 4).blk t).view.emb j) 1) k) := by
  obtain ⟨e14, e20, e30, e40, e10, e21, e31⟩ := cut_sizes t
  obtain ⟨i00, i01, i10, i11, i20, i21, i30, i31, i40, i41⟩ := idx_facts t
  have hj1 : (j 1).val < win0_4.xsize (grid0.coords t) 1 := (j 1).isLt
  have hmv : win0_1.moved (grid0.coords t) (ix2 q k) = true := (win0_1.moved_iff _ _).mpr fun a => by
    match a with
    | ⟨0, _⟩ => show q.val < win0_1.xsize (grid0.coords t) 0; rw [e10, hq]; exact hj1
    | ⟨1, _⟩ => show k.val < win0_1.xsize (grid0.coords t) 1; rw [e14]; exact k.isLt
  unfold wTile Window.fill
  rw [dif_pos hmv]
  show V m c main_arg1 (((cfg0.win 1).blk t).view.emb _) = V m c main_arg1 (ix2 ((((cfg0.win 4).blk t).view.emb j) 1) k)
  refine congrArg (V m c main_arg1) (funext fun a => Fin.ext ?_)
  match a with
  | ⟨0, _⟩ => show win0_1.index t 0 * 512 + 1 * q.val = win0_4.index t 1 * 512 + 1 * (j 1).val; rw [i10, i41, hq]
  | ⟨1, _⟩ => show win0_1.index t 1 * 4096 + 1 * k.val = k.val; rw [i11]; omega

/-- Entry `q` of the scale tile, likewise, is entry `512 t + q` of the scale row. -/
theorem s_read (q : Fin 512) (hq : q.val = (j 1).val) :
    sTile m c t (ix2 0 q) = aS m c (ix2 0 ((((cfg0.win 4).blk t).view.emb j) 1)) := by
  obtain ⟨e14, e20, e30, e40, e10, e21, e31⟩ := cut_sizes t
  obtain ⟨i00, i01, i10, i11, i20, i21, i30, i31, i40, i41⟩ := idx_facts t
  have hj1 : (j 1).val < win0_4.xsize (grid0.coords t) 1 := (j 1).isLt
  have hmv : win0_2.moved (grid0.coords t) (ix2 0 q) = true := (win0_2.moved_iff _ _).mpr fun a => by
    match a with
    | ⟨0, _⟩ => show (0 : Nat) < win0_2.xsize (grid0.coords t) 0; rw [e20]; exact Nat.one_pos
    | ⟨1, _⟩ => show q.val < win0_2.xsize (grid0.coords t) 1; rw [e21, hq]; exact hj1
  unfold sTile Window.fill
  rw [dif_pos hmv]
  show V m c main_v2 (((cfg0.win 2).blk t).view.emb _) = V m c main_v2 (ix2 0 ((((cfg0.win 4).blk t).view.emb j) 1))
  refine congrArg (V m c main_v2) (funext fun a => Fin.ext ?_)
  match a with
  | ⟨0, _⟩ => show win0_2.index t 0 * 1 + 1 * 0 = 0; rw [i20]
  | ⟨1, _⟩ => show win0_2.index t 1 * 512 + 1 * q.val = win0_4.index t 1 * 512 + 1 * (j 1).val; rw [i21, i41, hq]

/-- And entry `q` of the bias tile is entry `512 t + q` of the bias row. -/
theorem b_read (q : Fin 512) (hq : q.val = (j 1).val) :
    bTile m c t (ix2 0 q) = aB m c (ix2 0 ((((cfg0.win 4).blk t).view.emb j) 1)) := by
  obtain ⟨e14, e20, e30, e40, e10, e21, e31⟩ := cut_sizes t
  obtain ⟨i00, i01, i10, i11, i20, i21, i30, i31, i40, i41⟩ := idx_facts t
  have hj1 : (j 1).val < win0_4.xsize (grid0.coords t) 1 := (j 1).isLt
  have hmv : win0_3.moved (grid0.coords t) (ix2 0 q) = true := (win0_3.moved_iff _ _).mpr fun a => by
    match a with
    | ⟨0, _⟩ => show (0 : Nat) < win0_3.xsize (grid0.coords t) 0; rw [e30]; exact Nat.one_pos
    | ⟨1, _⟩ => show q.val < win0_3.xsize (grid0.coords t) 1; rw [e31, hq]; exact hj1
  unfold bTile Window.fill
  rw [dif_pos hmv]
  show V m c main_v3 (((cfg0.win 3).blk t).view.emb _) = V m c main_v3 (ix2 0 ((((cfg0.win 4).blk t).view.emb j) 1))
  refine congrArg (V m c main_v3) (funext fun a => Fin.ext ?_)
  match a with
  | ⟨0, _⟩ => show win0_3.index t 0 * 1 + 1 * 0 = 0; rw [i30]
  | ⟨1, _⟩ => show win0_3.index t 1 * 512 + 1 * q.val = win0_4.index t 1 * 512 + 1 * (j 1).val; rw [i31, i41, hq]

end Reads

/-- WHAT POINT `t` WRITES BACK — the columns of the body's payload that lie inside the array — is block `t` of `tile` of
    the four arrays the region finds. -/
theorem flushed_eq (c : Dev nD) (t : Fin cfg0.N) :
    (dats m 0 c).flushed 4 t = ((cfg0.win 4).blk t).view.read (Elt Ideal) (tile (aX m c) (aW m c) (aS m c) (aB m c)) := by
  show (cfg0.win 4).cut (grid0.coords t) ((dats m 0 c).after 4 t) = _
  rw [after_4, outTile_eq]
  obtain ⟨e14, e20, e30, e40, e10, e21, e31⟩ := cut_sizes t
  funext j
  have hj1 : (j 1).val < win0_4.xsize (grid0.coords t) 1 := (j 1).isLt
  have hj0 : (j 0).val < 64 := e40 ▸ (j 0).isLt
  have hq : (j 1).val < 512 := lt_of_lt_of_le hj1 (win0_4.xsize_le (grid0.coords t) 1)
  have hx : win0_4.xinj (grid0.coords t) j = ix2 (⟨(j 0).val, hj0⟩ : Fin 64) (⟨(j 1).val, hq⟩ : Fin 512) :=
    funext fun a => Fin.ext (by match a with | ⟨0, _⟩ => rfl | ⟨1, _⟩ => rfl)
  show k0_pay1 (F := Ideal) _ _ _ _ (win0_4.xinj (grid0.coords t) j) = tile _ _ _ _ (((cfg0.win 4).blk t).view.emb j)
  rw [hx, Payload.pay_apply, s_read m c t j ⟨(j 1).val, hq⟩ rfl, b_read m c t j ⟨(j 1).val, hq⟩ rfl]
  unfold tile
  refine congrArg (· + _) (congrArg (· * _) (Finset.sum_congr rfl fun k _ => ?_))
  rw [x_read m c t j ⟨(j 0).val, hj0⟩ k rfl, w_read m c t j ⟨(j 1).val, hq⟩ k rfl]

/-! ## The tiles cover the array -/

/-- An index of the array is in point `t`'s block iff each coordinate is in the block's range on its axis, the
    range cut at the array's end. -/
theorem mem_blk (t : Fin cfg0.N) (i : S64x11008.Idx) :
    i ∈ ((cfg0.win 4).blk t).view.set
      ↔ ∀ a : Fin 2, win0_4.index t a * S64x512.size a ≤ (i a).val ∧ (i a).val < win0_4.index t a * S64x512.size a + win0_4.xsize (grid0.coords t) a := by
  show i ∈ ((View.whole main_v4).slice (win0_4.rect t)).set ↔ _
  rw [View.set_slice_whole, Rect.mem_set_unit]
  exact Iff.rfl

/-- Column `o` of the array is in the tile of point `o / 512`. -/
theorem cover (i : S64x11008.Idx) : ∃ t : Fin cfg0.N, (cfg0.win 4).flush t = true ∧ i ∈ ((cfg0.win 4).blk t).view.set := by
  have hi0 : (i 0).val < 64 := (i 0).isLt
  have hi1 : (i 1).val < 11008 := (i 1).isLt
  have hN : cfg0.N = 22 := N_0
  let t : Fin cfg0.N := ⟨(i 1).val / 512, by rw [hN]; omega⟩
  have ht : t.val = (i 1).val / 512 := rfl
  obtain ⟨i00, i01, i10, i11, i20, i21, i30, i31, i40, i41⟩ := idx_facts t
  obtain ⟨e14, e20, e30, e40, e10, e21, e31⟩ := cut_sizes t
  obtain ⟨c1, c2, c3⟩ := cols_inside t
  refine ⟨t, flush0_4 t, (mem_blk t i).mpr fun a => ?_⟩
  match a with
  | ⟨0, _⟩ =>
    show win0_4.index t 0 * 64 ≤ (i 0).val ∧ (i 0).val < win0_4.index t 0 * 64 + win0_4.xsize (grid0.coords t) 0
    rw [i40, e40]; omega
  | ⟨1, _⟩ =>
    show win0_4.index t 1 * 512 ≤ (i 1).val ∧ (i 1).val < win0_4.index t 1 * 512 + win0_4.xsize (grid0.coords t) 1
    rw [i41]
    rcases Nat.lt_or_ge t.val 21 with h | h
    · rw [c1 h]; omega
    · rw [c2 (by omega)]; omega

/-- THE ARRAY the region writes, after the run: `tile` of the four arrays the region finds. -/
theorem final (c : Dev nD) : (dats m 0 c).arrAt 4 cfg0.N = tile (aX m c) (aW m c) (aS m c) (aB m c) :=
  (dats m 0 c).arrAt_eq_of_cover 4 _ (fun t _ => flushed_eq m c t) cover

/-! ## The arrays the region finds, from the program's arguments -/

/-- The activations as the region finds them: the argument read as a 64 × 4096 matrix (its change of float format is
    the identity on extended reals). -/
theorem aX_eq (c : Dev nD) :
    aX m c = truncf (F := Ideal) .bf16 (shapeCast S64x4096 (m ((c : Thread nD τ).loc main_arg0)) Facts₀.shapeCasts_S16x4x4096_S64x4096) Facts₀.bitsLt_bf16_f32 := by
  show StableHlo.after hostOps0 (fun b => m (c, b)) (Proc.devRef .tc main_v1) = _
  after_results
  rfl

/-- The scale and the bias as the region finds them: the arguments read as 1 × 11008 rows. -/
theorem aS_eq (c : Dev nD) :
    aS m c = shapeCast S1x11008 (m ((c : Thread nD τ).loc main_arg2)) Facts₀.shapeCasts_S11008_S1x11008 := by
  show StableHlo.after hostOps0 (fun b => m (c, b)) (Proc.devRef .tc main_v2) = _
  after_results
  rfl
theorem aB_eq (c : Dev nD) :
    aB m c = shapeCast S1x11008 (m ((c : Thread nD τ).loc main_arg3)) Facts₀.shapeCasts_S11008_S1x11008 := by
  show StableHlo.after hostOps0 (fun b => m (c, b)) (Proc.devRef .tc main_v3) = _
  after_results
  rfl

/-- The weight matrix is the argument itself. -/
theorem aW_eq (c : Dev nD) : aW m c = m ((c : Thread nD τ).loc main_arg1) := V_main_arg1 m c

/-- Row `4 b + s` of the activations' matrix is the batch entry `(b, s)`. -/
theorem aX_apply (c : Dev nD) (b : Fin 16) (s : Fin 4) (k : Fin 4096) (r : Fin 64) (hr : r.val = b.val * 4 + s.val) :
    aX m c (ix2 r k) = m ((c : Thread nD τ).loc main_arg0) (ix3 b s k) := by
  rw [aX_eq, truncf_apply]
  exact shapeCast_apply _ _ (ix2 r k) (ix3 b s k) (by
    rw [Shape.rowMajor_val_three, Shape.rowMajor_val_two]
    show (b.val * 4 + s.val) * 4096 + k.val = r.val * 4096 + k.val
    rw [hr])

/-- Entry `o` of the scale row, and of the bias row, is entry `o` of the argument. -/
theorem aS_apply (c : Dev nD) (o : Fin 11008) : aS m c (ix2 0 o) = m ((c : Thread nD τ).loc main_arg2) (ix1 o) := by
  rw [aS_eq]
  exact shapeCast_apply _ _ (ix2 0 o) (ix1 o) (by
    rw [Shape.rowMajor_val_one, Shape.rowMajor_val_two]
    show o.val = 0 * 11008 + o.val
    omega)
theorem aB_apply (c : Dev nD) (o : Fin 11008) : aB m c (ix2 0 o) = m ((c : Thread nD τ).loc main_arg3) (ix1 o) := by
  rw [aB_eq]
  exact shapeCast_apply _ _ (ix2 0 o) (ix1 o) (by
    rw [Shape.rowMajor_val_one, Shape.rowMajor_val_two]
    show o.val = 0 * 11008 + o.val
    omega)

/-! ## The program's result -/

/-- The line after the region reads the 64 × 11008 array as 16 × 4 × 11008. -/
theorem tail_eq (c : Dev nD) :
    Pipeline.afterTail₀ cfgs (dats m) 0 (V0 m) [hostOps1] c main_v5
      = shapeCast S16x4x11008 (tile (aX m c) (aW m c) (aS m c) (aB m c)) Facts₀.shapeCasts_S64x11008_S16x4x11008 := by
  unfold Pipeline.afterTail₀
  show StableHlo.after hostOps1 _ (Proc.devRef .tc main_v5) = _
  after_results
  exact congrArg (fun v : Vec Ideal S64x11008 .f32 => shapeCast S16x4x11008 v Facts₀.shapeCasts_S64x11008_S16x4x11008)
    ((Pipeline.withArrays_arr spec0 launch0.win.arr_inj c (V0 m c) _ 4).trans (final m c))

/-- Read so, it is the layer's function of the four arguments: entry `(b, s, o)` is row `4 b + s`, column `o`. -/
theorem result_outK (c : Dev nD) :
    shapeCast S16x4x11008 (tile (aX m c) (aW m c) (aS m c) (aB m c)) Facts₀.shapeCasts_S64x11008_S16x4x11008
      = Cert.QLinear.outK (m ((c : Thread nD τ).loc main_arg0)) (m ((c : Thread nD τ).loc main_arg1))
          (m ((c : Thread nD τ).loc main_arg2)) (m ((c : Thread nD τ).loc main_arg3)) := by
  funext i
  obtain ⟨b, s, o, rfl⟩ : ∃ (b : Fin 16) (s : Fin 4) (o : Fin 11008), i = ix3 b s o := ⟨i 0, i 1, i 2, eq_ix3 i⟩
  have hr : b.val * 4 + s.val < 64 := by have := b.isLt; have := s.isLt; omega
  rw [shapeCast_apply _ _ (ix3 b s o) (ix2 (⟨b.val * 4 + s.val, hr⟩ : Fin 64) o) (by
    rw [Shape.rowMajor_val_two, Shape.rowMajor_val_three]; rfl)]
  unfold tile Cert.QLinear.outK Cert.QLinear.wt
  show (∑ k : Fin 4096, aX m c (ix2 ⟨b.val * 4 + s.val, hr⟩ k) * (((aW m c (ix2 o k)).toInt : ℝ) : EReal)) * (aS m c (ix2 0 o) * ((1 / 127 : ℝ) : EReal))
      + aB m c (ix2 0 o) = _
  rw [aS_apply, aB_apply, aW_eq]
  refine congrArg (· + _) (congrArg (· * _) (Finset.sum_congr rfl fun k _ => ?_))
  rw [aX_apply m c b s k ⟨b.val * 4 + s.val, hr⟩ rfl]

/-- THE RUN, READ: every weakly fair execution of the idealized kernel's program terminates with the result array at
    the layer's function of the four arguments, and the arguments as launched. -/
theorem run : θ_run defs (onTc (τ := τ) (main (F := Ideal))) ⟨m, fun _ => 0, ρ⟩ fun r => ∀ c : Dev nD,
      r.2.mem ((c.tc : Thread nD τ).loc main_v5)
        = Cert.QLinear.outK (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v5 (Pipeline.mem_restRefs_of main_v5 (by decide) (by decide))).trans ((tail_eq m c).trans (result_outK m c)),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.Result

end
-- ==== Proof.RefValue.lean ====
/-
  The reference side of the quantized linear layer, read over the extended reals.

  The reference dequantizes every weight first: at the output index (b, s, o) it forms
    (∑ k, x[b,s,k] · (w[o,k] · (scale[o] / 127))) + bias[o],
  the integer w[o,k] read signed as a real and 127 the exact value of the float literal it divides by.
  The layer's stated function forms the integer product first and applies the factor scale[o] · (1/127)
  to the finished sum.  The two agree whenever the entries of x and of scale are real numbers: a real factor
  moves across a finite sum of reals.  (At an infinite entry it need not: ∞ · a + (−∞) · a is not (∞ − ∞) · a.)
  The second part reads the printed precondition: "|v| < +∞ at every entry" says every entry of v is a real.
-/
import proofs.«411013_j2654289789344_3_alg».proof.Proof.Spec
import proofs.«411013_j2654289789344_3_alg».proof.Proof.Gen.ReferenceIdeal.Read
import proofs.«411013_j2654289789344_3_alg».proof.Proof.Gen.Pre_finite_inputs
import proofs.«411013_j2654289789344_3_alg».proof.Pre_finite_inputs
import Idealize.ShloMosaic.PureOps.Ideal
import Idealize.ShloMosaic.Lib.ValueIdx
import Idealize.ShloMosaic.Lib.ReduceAll
import Idealize.ShloMosaic.Lib.Affine

noncomputable section

namespace Cert.QLinear.Ref

open Idealize.ShloMosaic Idealize.ShloMosaic.ValueIdx Cert.ReferenceIdeal

/-! ## A real factor across a finite sum of reals -/

section Algebra

/-- The embedding of the reals in the extended reals carries a finite sum to the sum of the images. -/
theorem coe_sum {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- Scaling every term by the real `σ · (1/127)` is scaling the sum by it, for real terms `ξ k · W k`. -/
theorem factor_across_sum {ι : Type} [Fintype ι] (ξ W : ι → ℝ) (σ : ℝ) :
    ∑ k, ((ξ k : ℝ) : EReal) * (((W k : ℝ) : EReal) * (((σ : ℝ) : EReal) * ((1 / 127 : ℝ) : EReal)))
      = (∑ k, ((ξ k : ℝ) : EReal) * ((W k : ℝ) : EReal)) * (((σ : ℝ) : EReal) * ((1 / 127 : ℝ) : EReal)) := by
  have hl : ∀ k, ((ξ k : ℝ) : EReal) * (((W k : ℝ) : EReal) * (((σ : ℝ) : EReal) * ((1 / 127 : ℝ) : EReal)))
      = ((ξ k * (W k * (σ * (1 / 127))) : ℝ) : EReal) := fun k => by
    rw [EReal.coe_mul, EReal.coe_mul, EReal.coe_mul]
  have hr : ∀ k, ((ξ k : ℝ) : EReal) * ((W k : ℝ) : EReal) = ((ξ k * W k : ℝ) : EReal) := fun k => by
    rw [EReal.coe_mul]
  simp only [hl, hr]
  rw [← coe_sum, ← coe_sum, ← EReal.coe_mul, ← EReal.coe_mul, EReal.coe_eq_coe_iff, Finset.sum_mul]
  exact Finset.sum_congr rfl fun k _ => by ring

end Algebra

/-! ## The literal the reference divides by -/

/-- The float word `0x42FE0000` is the real number 127: exponent field 133, significand `2^23 + 0x7E0000`. -/
theorem ofBits_127 : Ideal.ofBits .f32 0x42FE0000#32 = ((127 : ℝ) : EReal) := by
  simp [Ideal.ofBits, Ideal.ieee, -EReal.coe_mul]; norm_num

/-! ## The reference at an index -/

/-- The left operand of the contraction is read at `(b, s, k)`. -/
theorem lidx_eq (i : S16x4x11008.Idx) (k : Fin 4096) : Read.lidx_main_v6 i k = ix3 (i 0) (i 1) k :=
  funext fun a => Fin.ext (by match a with | ⟨0, _⟩ => rfl | ⟨1, _⟩ => rfl | ⟨2, _⟩ => rfl)

/-- The right operand of the contraction is read at `(o, k)`. -/
theorem ridx_eq (i : S16x4x11008.Idx) (k : Fin 4096) : Read.ridx_main_v6 i k = ix2 (i 2) k :=
  funext fun a => Fin.ext (by match a with | ⟨0, _⟩ => rfl | ⟨1, _⟩ => rfl)

/-- The per-feature factor, broadcast along a row of the weight matrix, is read at the row's number. -/
theorem scale_idx (o : Fin 11008) (k : Fin 4096) : Read.idx_main_v3 (Read.idx_main_v4 (ix2 o k)) = ix1 o :=
  funext fun a => Fin.ext (by match a with | ⟨0, _⟩ => rfl)

/-- The bias, broadcast over the batch axes, is read at the output feature. -/
theorem bias_idx (i : S16x4x11008.Idx) : Read.idx_main_v7 (Read.idx_main_v8 i) = ix1 (i 2) :=
  funext fun a => Fin.ext (by match a with | ⟨0, _⟩ => rfl)

/-- The dequantized weight at `(o, k)`: the integer read signed, times `scale[o]` divided by the literal. -/
theorem weight_apply (x1 : IVec SW 32) (x2 : FVec Ideal SV .f32) (o : Fin 11008) (k : Fin 4096) :
    Read.val_main_v5 (F := Ideal) x1 x2 (ix2 o k)
      = wt x1 o k * Ideal.div (x2 (ix1 o)) (Ideal.ofBits .f32 0x42FE0000#32) := by
  rw [Read.val_main_v5_apply, Read.val_main_v4_apply, Read.val_main_v3_apply, Read.val_main_v2_apply,
    Read.val_main_v1_apply, Read.val_main_cst_apply, Read.val_main_v0_apply, scale_idx]
  rfl

/-- The reference's result at `(b, s, o)`: the sum over `k` of `x[b,s,k]` times the dequantized weight, plus the bias. -/
theorem ref_apply (x0 : FVec Ideal SX .f32) (x1 : IVec SW 32) (x2 x3 : FVec Ideal SV .f32) (i : SO.Idx) :
    Read.val_main_v9 (F := Ideal) x0 x1 x2 x3 i
      = (∑ k : Fin 4096, x0 (ix3 (i 0) (i 1) k)
            * (wt x1 (i 2) k * Ideal.div (x2 (ix1 (i 2))) (Ideal.ofBits .f32 0x42FE0000#32)))
          + x3 (ix1 (i 2)) := by
  rw [Read.val_main_v9_apply, Read.val_main_v6_apply, Read.val_main_v8_apply, Read.val_main_v7_apply, bias_idx]
  refine congrArg (· + x3 (ix1 (i 2))) (Finset.sum_congr rfl fun k _ => ?_)
  rw [lidx_eq, ridx_eq]
  exact congrArg (x0 (ix3 (i 0) (i 1) k) * ·) (weight_apply x1 x2 (i 2) k)

/-- The reference's result stage is the layer's function, when x and scale have real entries. -/
theorem ref_eq_outK (x0 : FVec Ideal Cert.QLinear.SX .f32) (x1 : IVec Cert.QLinear.SW 32) (x2 x3 : FVec Ideal Cert.QLinear.SV .f32)
    (hx : ∀ i, ∃ r : ℝ, x0 i = ((r : ℝ) : EReal)) (hs : ∀ i, ∃ r : ℝ, x2 i = ((r : ℝ) : EReal)) :
    Cert.ReferenceIdeal.Read.val_main_v9 (F := Ideal) x0 x1 x2 x3 = Cert.QLinear.outK x0 x1 x2 x3 := by
  funext i
  choose ξ hξ using hx
  obtain ⟨σ, hσ⟩ := hs (ix1 (i 2))
  rw [ref_apply, outK, hσ, ofBits_127, Ideal.div_coe (by norm_num : (127 : ℝ) ≠ 0)]
  simp only [hξ]
  exact congrArg (· + x3 (ix1 (i 2)))
    (factor_across_sum (fun k => ξ (ix3 (i 0) (i 1) k)) (fun k => ((x1 (ix2 (i 2) k)).toInt : ℝ)) σ)

/-! ## The precondition read back -/

instance : Subsingleton Cert.Pre_finite_inputs.S_.Idx := ⟨fun a b => funext fun d => d.elim0⟩

/-- The float word `0x7F800000` is +∞. -/
theorem ofBits_inf : Ideal.ofBits .f32 0x7F800000#32 = ⊤ := by
  simp [Ideal.ofBits, Ideal.ieee]

/-- An extended real whose absolute value, the greater of it and its negative, is strictly below +∞ is a real number:
    at −∞ the negative is +∞, at +∞ the number itself is. -/
theorem real_of_abs_lt_top (x : EReal) (h : max x (-x) < ⊤) : ∃ r : ℝ, x = ((r : ℝ) : EReal) := by
  induction x using EReal.rec with
  | bot => simp at h
  | coe r => exact ⟨r, rfl⟩
  | top => simp at h

/-- The printed comparison `|x| < +∞` coming out true makes `x` a real number. -/
theorem real_of_olt_inf (x : EReal)
    (h : Ideal.cmp .olt (max x (-x)) (Ideal.ofBits .f32 0x7F800000#32) = 1#1) : ∃ r : ℝ, x = ((r : ℝ) : EReal) := by
  rw [ofBits_inf] at h
  refine real_of_abs_lt_top x ?_
  by_contra hn
  simp [Ideal.cmp, hn] at h

/-- The printed precondition, all ones, makes every entry of x and of scale a real number. -/
theorem real_of_pre (a0 : FVec Ideal Cert.QLinear.SX .f32) (a1 : IVec Cert.QLinear.SW 32) (a2 a3 : FVec Ideal Cert.QLinear.SV .f32)
    (h : Cert.Pre_finite_inputs.fn (F := Ideal) a0 a1 a2 a3 = fun _ => 1#1) :
    (∀ i, ∃ r : ℝ, a0 i = ((r : ℝ) : EReal)) ∧ (∀ i, ∃ r : ℝ, a2 i = ((r : ℝ) : EReal)) := by
  have h0 := congrFun h ValueIdx.ix0
  dsimp only [Cert.Pre_finite_inputs.fn] at h0
  obtain ⟨h01, _⟩ := IntOp.andi_eq_one.1 h0
  obtain ⟨hA, hB⟩ := IntOp.andi_eq_one.1 h01
  exact ⟨fun i => real_of_olt_inf (a0 i) (Host.reduce_andi_all _ _ _ _ _ hA i),
    fun i => real_of_olt_inf (a2 i) (Host.reduce_andi_all _ _ _ _ _ hB i)⟩

end Cert.QLinear.Ref

end
-- ==== Proof.lean ====
/-
  A quantized linear layer: activations `x` (16 × 4 × 4096 floats), an integer weight matrix `w` (11008 × 4096, stored in
  32-bit words), and per-output-feature `scale` and `bias` (11008 floats each). The kernel forms the integer product
  `x · wᵀ` tile by tile over the output features and then applies `scale[o] · (1/127)` and `bias[o]` to the 64 × 11008
  product; the reference dequantizes every weight first, `w[o, k] · (scale[o] / 127)`, and contracts afterwards.

  Over the extended reals, with the constant the kernel multiplies by read as the rational 1/127 it stands for, both
  compute, at `(b, s, o)`,

      (∑ k, x[b, s, k] · w[o, k]) · (scale[o] · (1/127)) + bias[o],

  provided the entries of `x` and `scale` are real numbers, which the precondition says: a real factor moves across a
  finite sum of reals (at an infinite entry it need not). The kernel's side is the run of its pipeline read tile by
  tile — the last tile reaches past the arrays' end, and what lies there reaches only columns that are never written
  back —; the reference's side is its operations read one at a time at an index.

  The three frames: the word-level program's and the idealized one's by the pipeline's run with the body's triple at
  every point (at the word level nothing is said of what the result's tile holds; a frame does not need it), the
  reference's by its run. The idealization changed one thing, the constant's reading, and that is its one statement.
-/
import proofs.«411013_j2654289789344_3_alg».proof.Defs
import proofs.«411013_j2654289789344_3_alg».proof.Proof.Gen.Kernel
import proofs.«411013_j2654289789344_3_alg».proof.Proof.Gen.KernelIdeal
import proofs.«411013_j2654289789344_3_alg».proof.Proof.Gen.KernelIdeal.Frame
import proofs.«411013_j2654289789344_3_alg».proof.Proof.Gen.ReferenceIdeal
import proofs.«411013_j2654289789344_3_alg».proof.Proof.Gen.Pre_finite_inputs
import proofs.«411013_j2654289789344_3_alg».proof.Proof.Gen.ReferenceIdeal.Run
import proofs.«411013_j2654289789344_3_alg».proof.Proof.Gen.ReferenceIdeal.Read
import proofs.«411013_j2654289789344_3_alg».proof.Proof.KernelFrame
import proofs.«411013_j2654289789344_3_alg».proof.Proof.Body
import proofs.«411013_j2654289789344_3_alg».proof.Proof.Result
import proofs.«411013_j2654289789344_3_alg».proof.Proof.RefValue
import Idealize.ShloMosaic.PureOps.IdealRules
import Idealize.ShloMosaic.Adequacy
import Idealize.ShloMosaic.Init

noncomputable section

namespace Cert.Proof

open Idealize.ShloMosaic Idealize.SL.Sem

/-- The word-level program runs to the end and leaves its arguments as launched. -/
theorem frame_k : Cert.frame_Kernel := Cert.Proof.KernelFrame.frame

/-- So does the idealized one: its pipeline's run, read at the argument arrays. -/
theorem frame_ki : Cert.frame_KernelIdeal := fun m ρ _ =>
  Cert.KernelIdeal.Gen.frame_of m ρ (Cert.KernelIdeal.Body.dats m) (Cert.KernelIdeal.Body.A_eq m) (Cert.KernelIdeal.Body.run_main m ρ)

/-- And the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one change the idealization made: the constant `0x3C010204`, the float nearest 1/127, is read as 1/127. -/
theorem preserves : Cert.preserves_Kernel_KernelIdeal :=
  IdealRules.named_const.statement Cert.KernelIdeal.κ "inv_127" .f32 0x3C010204#32 ((1 / 127 : ℝ) : EReal) rfl

/-- From memories agreeing on the four arguments both programs end with the layer's function of them as result: the
    kernel's run read tile by tile, and the reference's operations read at an index, the per-feature factor moved across
    the sum because `x` and `scale` have real entries. -/
theorem algebraic : Cert.algebraic_KernelIdeal_ReferenceIdeal := by
  intro m ρ m' ρ' hpre hagree
  refine ⟨fun c => Cert.QLinear.outK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, (hagree c).1, (hagree c).2.1, (hagree c).2.2.1, (hagree c).2.2.2]
  obtain ⟨hx, hs⟩ := Cert.QLinear.Ref.real_of_pre _ _ _ _ (hpre c)
  exact Cert.QLinear.Ref.ref_eq_outK _ _ _ _ hx hs

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
